-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x512x4096 : Shape := ⟨3, ![16, 512, 4096]⟩
abbrev S1x512x4096 : Shape := ⟨3, ![1, 512, 4096]⟩
abbrev S1x128x4096 : Shape := ⟨3, ![1, 128, 4096]⟩
abbrev S512x4096 : Shape := ⟨2, ![512, 4096]⟩
abbrev S128x4096 : Shape := ⟨2, ![128, 4096]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x4096, .f32⟩
  | .hbm, ⟨5, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x128x4096, .f32⟩
  | .local _ .vmem, ⟨3, _⟩ => ⟨S1x128x4096, .f32⟩
  | .local _ .vmem, ⟨4, _⟩ => ⟨S512x4096, .bf16⟩
  | .local _ .vmem, ⟨5, _⟩ => ⟨S512x4096, .bf16⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0 : Index := 0#32
  ![v5.toNat, 0]
def k0_off2 (i : grid0.Coords) : Fin 3 → Nat :=
  let c0_6 : Index := 0#32
  let arg1 : BitVec 32 := BitVec.ofNat 32 (i 1).val
  let c128_i32 : BitVec 32 := 128#32
  let v3 : BitVec 32 := Scalar.muli arg1 c128_i32
  let v4 : BitVec 32 := v3
  let v13 : Index := Scalar.indexCast v4
  let c0_7 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  h_S128x4096 : 0 < S128x4096.numel
  h_S1x128x4096 : 0 < S1x128x4096.numel
  shapeCasts_S1x128x4096_S128x4096 : S1x128x4096.ShapeCasts S128x4096
  inb_S1x128x4096_S1x128x4096_0_0_0 : ∀ a, (![0, 0, 0] : Fin 3 → Nat) a + S1x128x4096.size a ≤ S1x128x4096.size a
  shapeCasts_S128x4096_S1x128x4096 : S128x4096.ShapeCasts S1x128x4096
  shapeCasts_S16x512x4096_S16x512x64x64 : S16x512x4096.ShapeCasts S16x512x64x64
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x4096.size a ≤ S512x4096.size a
  k0_off2_inb : ∀ i : grid0.Coords, ∀ a, (k0_off2 i) a + S1x128x4096.size a ≤ S1x512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S16x512x4096.size a
  hwx0_2 : ∀ i : grid0.Coords, EltTy.bits .f32 = 32 ∨ (Rect.block (s := S16x512x4096) S1x128x4096.size (cc0_transform_2 i) (hinb0_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S1x512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x4096, .f32⟩
  | .hbm, ⟨14, _⟩ => ⟨S16x512x64x64, .f32⟩
  | .hbm, ⟨15, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  bcast_S_S16x512x512 : S_.BroadcastsInDim S16x512x512 (![] : Fin 0 → Fin S16x512x512.rank)
  shapeCasts_S16x512x4096_S16x512x64x64 : S16x512x4096.ShapeCasts S16x512x64x64
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.Fusion.lean ====
/-
  The fused feature map as ONE function of the two argument arrays, at the ideal values.

  Write the two spatial axes as one axis of 4096 positions. For a batch `b`, two channels `c`, `d` and a position
  `s`: the COUPLING between `c` and `d` is the logistic function of the inner product, over all positions, of depth's
  channel `c` with rgb's channel `d`; the WEIGHTED depth at `(b, c, s)` is the sum over `d` of the coupling times depth
  at `(b, d, s)`; the result adds rgb at `(b, c, s)`. Nothing here rounds and no order of summation is left: a sum is
  a sum over a finite index type on the extended reals.

  The two programs differ in where the positions are flattened and unflattened. Both reshapes keep the row-major
  position, so the result on the four-axis arrays is the three-axis function between one flattening and one
  unflattening; flattening and unflattening again gives an array back (`unflatten_flatten`), and unflattening
  commutes with an elementwise sum (`unflatten_add`).
-/
import Idealize.ShloMosaic.PureOps.Ideal.Laws
import Idealize.ShloMosaic.Lib.ValueIdx
import Idealize.ShloMosaic.Lib.Pipeline.Value

noncomputable section

namespace Cert.Fusion

open Idealize.ShloMosaic Idealize.ShloMosaic.ValueIdx

/-- Batch × channel × row × column. -/
abbrev Sbchw : Shape := ⟨4, ![16, 512, 64, 64]⟩
/-- Batch × channel × position. -/
abbrev Sbcs : Shape := ⟨3, ![16, 512, 4096]⟩

/-- The coupling between channels `c` (of depth) and `d` (of rgb) in batch `b`. -/
def coupling (R D : FVec Ideal Sbcs .f32) (b : Fin 16) (c d : Fin 512) : EReal :=
  Ideal.logistic (∑ s : Fin 4096, D (ix3 b c s) * R (ix3 b d s))

/-- Depth weighted by the couplings: at `(b, c, s)` the sum over `d` of `coupling b c d · depth (b, d, s)`. -/
def weighted (R D : FVec Ideal Sbcs .f32) : FVec Ideal Sbcs .f32 :=
  fun j => ∑ d : Fin 512, coupling R D (j 0) (j 1) d * D (ix3 (j 0) d (j 2))

/-- The fused map on the flattened arrays: rgb plus the weighted depth. -/
def fused3 (R D : FVec Ideal Sbcs .f32) : FVec Ideal Sbcs .f32 :=
  fun j => R j + weighted R D j

/-- The fused map on the four-axis arrays: flatten both, fuse, unflatten. -/
def fused (h : Sbchw.ShapeCasts Sbcs) (h' : Sbcs.ShapeCasts Sbchw) (A0 A1 : FVec Ideal Sbchw .f32) : FVec Ideal Sbchw .f32 :=
  shapeCast Sbchw (fused3 (shapeCast Sbcs A0 h) (shapeCast Sbcs A1 h)) h'

/-- Unflattening commutes with an elementwise sum: a reshape only moves indices. -/
theorem unflatten_add (h' : Sbcs.ShapeCasts Sbchw) (X Y : FVec Ideal Sbcs .f32) :
    shapeCast Sbchw (fun j => X j + Y j) h' = fun i => shapeCast Sbchw X h' i + shapeCast Sbchw Y h' i := rfl

/-- Flattening and unflattening again gives the array back. -/
theorem unflatten_flatten (h : Sbchw.ShapeCasts Sbcs) (h' : Sbcs.ShapeCasts Sbchw) (A : FVec Ideal Sbchw .f32) :
    shapeCast Sbchw (shapeCast Sbcs A h) h' = A :=
  shapeCast_shapeCast A h h'

/-- So the fused map is rgb itself plus the unflattened weighted depth: the form in which the reference adds, on
    the four-axis arrays. -/
theorem fused_eq (h : Sbchw.ShapeCasts Sbcs) (h' : Sbcs.ShapeCasts Sbchw) (A0 A1 : FVec Ideal Sbchw .f32) :
    fused h h' A0 A1
      = fun i => A0 i + shapeCast Sbchw (weighted (shapeCast Sbcs A0 h) (shapeCast Sbcs A1 h)) h' i := by
  unfold fused fused3
  rw [unflatten_add, unflatten_flatten]

end Cert.Fusion

end
-- ==== Proof.Reference.lean ====
/-
  The reference computes the fused map.

  On the host the reference flattens both arrays, forms for every batch the matrix of inner products of depth's
  channels with rgb's channels over the positions, passes it through `1 / (1 + exp (-x))`, multiplies the result into
  the flattened depth, unflattens, and adds rgb. At the ideal values:
  * each batched product, read at an entry, is a plain sum over the contracted axis (the positions for the couplings,
    the channels `d` for the weighting);
  * `1 / (1 + exp (-x))`, with `1` the exact value of its binary word, IS the logistic function on every extended
    real, the infinities included: that is how the logistic function is defined there;
  * so the weighted depth is `Fusion.weighted`, and adding rgb on the four-axis arrays is the form `Fusion.fused_eq`
    gives the fused map.
-/
import proofs.«152526_j21861383537209_1_alg».proof.Proof.Gen.ReferenceIdeal.Run
import proofs.«152526_j21861383537209_1_alg».proof.Proof.Gen.ReferenceIdeal.Read
import proofs.«152526_j21861383537209_1_alg».proof.Proof.Fusion
import Idealize.ShloMosaic.PureOps.IdealRules

noncomputable section

namespace Cert.Fusion.Ref

open Cert.ReferenceIdeal Cert.ReferenceIdeal.Gen Cert.ReferenceIdeal.Read
open Idealize.ShloMosaic Idealize.ShloMosaic.ValueIdx Cert.Fusion

/-- The word `0x3F800000` is the number one. -/
theorem one_word : (FloatOps.ofBits .f32 0x3F800000#32 : Ideal .f32) = 1 :=
  IdealRules.sign_bit.ideal_onePat .f32

/-- The host's `1 / (1 + exp (-x))` is the logistic function, on every extended real. -/
theorem host_logistic (x : Ideal .f32) :
    FloatOps.hostDivf (FloatOps.ofBits .f32 0x3F800000#32 : Ideal .f32)
        (FloatOps.addf (FloatOps.ofBits .f32 0x3F800000#32) (FloatOps.hostUnary .exp (FloatOps.hostNegf x)))
      = Ideal.logistic x := by
  rw [one_word]
  rfl

/-- The coupling the reference computes between depth's channel `c` and rgb's channel `d` in batch `b`. -/
theorem coupling_eq (x0 x1 : (⟨S16x512x64x64, .f32⟩ : BufTy).Contents (Elt Ideal)) (b : Fin 16) (c d : Fin 512) :
    val_main_v8 (F := Ideal) x0 x1 (ix3 b c d)
      = coupling (val_main_v0 (F := Ideal) x0) (val_main_v1 (F := Ideal) x1) b c d := by
  have el : ∀ k, lidx_main_v2 (ix3 b c d) k = ix3 b c k := fun k => funext fun a => by
    match a with
    | ⟨0, _⟩ => rfl
    | ⟨1, _⟩ => rfl
    | ⟨2, _⟩ => rfl
  have er : ∀ k, ridx_main_v2 (ix3 b c d) k = ix3 b d k := fun k => funext fun a => by
    match a with
    | ⟨0, _⟩ => rfl
    | ⟨1, _⟩ => rfl
    | ⟨2, _⟩ => rfl
  rw [val_main_v8_apply, val_main_v7_apply, val_main_cst_0_apply, val_main_v6_apply, val_main_v5_apply, val_main_cst_apply,
    val_main_v4_apply, val_main_v3_apply, val_main_v2_apply, host_logistic]
  simp only [el, er]
  rfl

/-- The product of the couplings into the flattened depth is the weighted depth. -/
theorem weighted_eq (x0 x1 : (⟨S16x512x64x64, .f32⟩ : BufTy).Contents (Elt Ideal)) :
    val_main_v9 (F := Ideal) x0 x1 = weighted (val_main_v0 (F := Ideal) x0) (val_main_v1 (F := Ideal) x1) := by
  funext j
  obtain ⟨b, c, s, rfl⟩ : ∃ (b : Fin 16) (c : Fin 512) (s : Fin 4096), j = ix3 b c s := ⟨j 0, j 1, j 2, eq_ix3 j⟩
  have el : ∀ d, lidx_main_v9 (ix3 b c s) d = ix3 b c d := fun d => funext fun a => by
    match a with
    | ⟨0, _⟩ => rfl
    | ⟨1, _⟩ => rfl
    | ⟨2, _⟩ => rfl
  have er : ∀ d, ridx_main_v9 (ix3 b c s) d = ix3 b d s := fun d => funext fun a => by
    match a with
    | ⟨0, _⟩ => rfl
    | ⟨1, _⟩ => rfl
    | ⟨2, _⟩ => rfl
  rw [val_main_v9_apply]
  show _ = ∑ d : Fin 512, coupling _ _ b c d * val_main_v1 (F := Ideal) x1 (ix3 b d s)
  refine Finset.sum_congr rfl fun d _ => ?_
  rw [el, er, coupling_eq]

/-- The reference's result is the fused map of its two arguments. -/
theorem result_eq (x0 x1 : (⟨S16x512x64x64, .f32⟩ : BufTy).Contents (Elt Ideal)) :
    val_main_v11 (F := Ideal) x0 x1
      = fused shapeCasts_S16x512x64x64_S16x512x4096 shapeCasts_S16x512x4096_S16x512x64x64 x0 x1 := by
  rw [fused_eq]
  funext i
  show x0 i + shapeCast _ (val_main_v9 (F := Ideal) x0 x1) shapeCasts_S16x512x4096_S16x512x64x64 i = _
  rw [weighted_eq]
  rfl

end Cert.Fusion.Ref

end
-- ==== Proof.Pieces.lean ====
/-
  What one grid point leaves behind, case by case.

  The body has two cases. At the first channel tile of a batch it first stores the whole rgb block and the whole
  depth block, each changed to the narrow float format, into the two scratch buffers; at the other tiles it stores
  nothing there, so the scratches still hold what the batch's first tile stored. In both cases it then reads a
  128-channel tile of the depth scratch, both scratches whole, and the matching 128 channels of the rgb block, and
  stores ONE whole output tile: the tile's arithmetic of those four operands. A read of a buffer just stored whole
  reads what was stored; so in the first case the operands are the freshly cached copies, in the other the carried
  contents. The statements below say exactly this; the two sub-rectangle reads are named `tileOf` and `rowsOf`.
-/
import proofs.«152526_j21861383537209_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 128 rows of a 512-row scratch that the channel tile of point `i` reads. -/
abbrev tileRect (i : grid0.Coords) : Rect S512x4096 := Rect.unit (s := S512x4096) (k0_off1 i) S128x4096.size (k0_off1_inb i)
/-- The matching 128 channels of a staged 1 × 512 × 4096 block. -/
abbrev rowsRect (i : grid0.Coords) : Rect S1x512x4096 := Rect.unit (s := S1x512x4096) (k0_off2 i) S1x128x4096.size (k0_off2_inb i)

/-- The channel tile's 128 rows of a scratch `X`, at point `i`. -/
def tileOf (i : grid0.Coords) (X : Vec F S512x4096 .bf16) : Vec F S128x4096 .bf16 := View.ld X (tileRect i)
/-- The matching 128 channels of a staged block `X`, at point `i`. -/
def rowsOf (i : grid0.Coords) (X : Vec F S1x512x4096 .f32) : Vec F S1x128x4096 .f32 := View.ld X (rowsRect i)

/-- First tile of a batch: the rgb scratch ends holding the cached copy of the rgb block. -/
theorem scratch_rgb_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i)
    (x0 : Vec F S1x512x4096 .f32) (x1 : Vec F S1x512x4096 .f32) :
    sout0_A_0 c i arg2 harg2 arg3 harg3 arg4 harg4 arg5 harg5 arg6 harg6 hc0 x0 x1 = k0_pay1 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, View.ld_unit_zero (S := S1x512x4096) hz3]

/-- First tile of a batch: the depth scratch ends holding the cached copy of the depth block. -/
theorem scratch_depth_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i)
    (x0 : Vec F S1x512x4096 .f32) (x1 : Vec F S1x512x4096 .f32) :
    sout0_A_1 c i arg2 harg2 arg3 harg3 arg4 harg4 arg5 harg5 arg6 harg6 hc0 x0 x1 = k0_pay2 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero hz2]
  simp only [View.readAt_eq_ld, harg3.read_unread, View.ld_unit_zero (S := S1x512x4096) hz3]

/-- Later tiles: the output tile is the arithmetic of the carried scratches `xs0` (rgb), `xs1` (depth) and the rgb
    block `x0`. -/
theorem out_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : ¬cond0_0 i)
    (x0 : Vec F S1x512x4096 .f32) (x1 : Vec F S1x512x4096 .f32) (xs0 : Vec F S512x4096 .bf16) (xs1 : Vec F S512x4096 .bf16) :
    out0_B_2 c i arg2 harg2 arg3 harg3 arg4 harg4 arg5 harg5 arg6 harg6 hc0 x0 x1 xs0 xs1
      = k0_pay3 (tileOf i xs1) xs0 xs1 (rowsOf i x0) := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero hz3]
  simp only [View.readAt_eq_ld, harg2.read_unread, harg5.read_unread, harg6.read_unread, View.ld_unit_zero (S := S512x4096) hz2]
  rfl

/-- First tile of a batch: the same arithmetic of the freshly cached copies. -/
theorem out_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i)
    (x0 : Vec F S1x512x4096 .f32) (x1 : Vec F S1x512x4096 .f32) :
    out0_A_2 c i arg2 harg2 arg3 harg3 arg4 harg4 arg5 harg5 arg6 harg6 hc0 x0 x1
      = k0_pay3 (tileOf i (k0_pay2 x1)) (k0_pay1 x0) (k0_pay2 x1) (rowsOf i x0) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz3]
  simp only [View.readAt_eq_ld, View.read_writes_junk_eq_canon, View.canon_unit_zero (S := S512x4096) hz2,
    View.readCov_unit_zero (S := S512x4096) _ hz2, harg2.read_unread, harg3.read_unread,
    View.ld_unit_zero (S := S1x512x4096) hz3]
  rfl

end Cert.KernelIdeal.Pieces

end
-- ==== Proof.Tile.lean ====
/-
  One tile of the kernel's arithmetic, read at an entry, at the ideal values.

  At a grid point the body holds a tile of 128 of depth's channels (`tile`), all 512 channels of rgb and of depth
  (`rgb`, `depth`), and the matching 128 channels of rgb (`rows`). It multiplies the tile by rgb transposed (a
  product contracting the positions of both), applies the logistic function, multiplies the result into depth (a
  product contracting the channels `d`), and adds the rows. Both products accumulate into zero, so at an entry each is
  the plain sum over its contracted axis; the changes of float format between them are the identity here. Hence: if
  the four operands are the corresponding entries of two flattened arrays `R`, `D` in batch `b`, channel tile `ct`,
  the stored tile is `Fusion.fused3 R D` at the tile's entries (`tile_value`).
-/
import proofs.«152526_j21861383537209_1_alg».proof.Proof.Gen.KernelIdeal.Skeleton
import proofs.«152526_j21861383537209_1_alg».proof.Proof.Fusion
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen
open Idealize.ShloMosaic Idealize.ShloMosaic.ValueIdx Cert.Fusion

/-! ## The coupling product: tile × rgbᵀ, contracting the positions -/

theorem coupling_lhs_0 (i : S128x512.Idx) (q : dot_S128x4096_S512x4096_S128x512_1_1_0_0_n_n.contr.Idx) :
    (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide), dif_pos (show (0 : Fin S128x4096.rank) ∈ dot_S128x4096_S512x4096_S128x512_1_1_0_0_n_n.lhsNonContracting by decide)]
  rfl
theorem coupling_lhs_1 (i : S128x512.Idx) (q : dot_S128x4096_S512x4096_S128x512_1_1_0_0_n_n.contr.Idx) :
    (dot_S128x4096_S512x4096_S128x512_1_1_0_0_n_n.lhsIdx i q 1).val = (q ⟨0, by decide⟩).val :=
  dot_S128x4096_S512x4096_S128x512_1_1_0_0_n_n.lhsIdx_val_of_single rfl i q
theorem coupling_rhs_0 (i : S128x512.Idx) (q : dot_S128x4096_S512x4096_S128x512_1_1_0_0_n_n.contr.Idx) :
    (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide), dif_pos (show (0 : Fin S512x4096.rank) ∈ dot_S128x4096_S512x4096_S128x512_1_1_0_0_n_n.rhsNonContracting by decide)]
  rfl
theorem coupling_rhs_1 (i : S128x512.Idx) (q : dot_S128x4096_S512x4096_S128x512_1_1_0_0_n_n.contr.Idx) :
    (dot_S128x4096_S512x4096_S128x512_1_1_0_0_n_n.rhsIdx i q 1).val = (q ⟨0, by decide⟩).val :=
  dot_S128x4096_S512x4096_S128x512_1_1_0_0_n_n.rhsIdx_val_of_single rfl i q

/-- Entry `(p, d)` of the coupling product: the inner product over the positions of the tile's row `p` with rgb's row `d`. -/
theorem coupling_apply (tile : FVec Ideal S128x4096 .bf16) (rgb : FVec Ideal S512x4096 .bf16) (p : Fin 128) (d : Fin 512) :
    FloatOps.matmul dot_S128x4096_S512x4096_S128x512_1_1_0_0_n_n none tile rgb (constant S128x512 .f32 0x00000000#32) (ix2 p d)
      = ∑ s : Fin 4096, tile (ix2 p s) * rgb (ix2 d s) := by
  rw [Ideal.matmul_constant_zero_apply, ← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 p d) ((contrEquiv1 dot_S128x4096_S512x4096_S128x512_1_1_0_0_n_n 4096 rfl rfl).symm k) = ix2 p k := funext fun a => Fin.ext (by
    match a with
    | ⟨0, _⟩ => exact coupling_lhs_0 _ _
    | ⟨1, _⟩ => exact (coupling_lhs_1 _ _).trans hk)
  have er : dot_S128x4096_S512x4096_S128x512_1_1_0_0_n_n.rhsIdx (ix2 p d) ((contrEquiv1 dot_S128x4096_S512x4096_S128x512_1_1_0_0_n_n 4096 rfl rfl).symm k) = ix2 d k := funext fun a => Fin.ext (by
    match a with
    | ⟨0, _⟩ => exact coupling_rhs_0 _ _
    | ⟨1, _⟩ => exact (coupling_rhs_1 _ _).trans hk)
  rw [el, er]

/-! ## The weighting product: couplings × depth, contracting the channels -/

theorem weight_lhs_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem weight_lhs_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem weight_rhs_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem weight_rhs_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- Entry `(p, s)` of the weighting product: the sum over the channels `d` of coupling `(p, d)` times depth at `(d, s)`. -/
theorem weight_apply (couplings : FVec Ideal S128x512 .bf16) (depth : FVec Ideal S512x4096 .bf16) (p : Fin 128) (s : Fin 4096) :
    FloatOps.matmul dot_S128x512_S512x4096_S128x4096_1_0_0_1_n_n none couplings depth (constant S128x4096 .f32 0x00000000#32) (ix2 p s)
      = ∑ d : Fin 512, couplings (ix2 p d) * depth (ix2 d s) := by
  rw [Ideal.matmul_constant_zero_apply, ← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 p s) ((contrEquiv1 dot_S128x512_S512x4096_S128x4096_1_0_0_1_n_n 512 rfl rfl).symm k) = ix2 p k := funext fun a => Fin.ext (by
    match a with
    | ⟨0, _⟩ => exact weight_lhs_0 _ _
    | ⟨1, _⟩ => exact (weight_lhs_1 _ _).trans hk)
  have er : dot_S128x512_S512x4096_S128x4096_1_0_0_1_n_n.rhsIdx (ix2 p s) ((contrEquiv1 dot_S128x512_S512x4096_S128x4096_1_0_0_1_n_n 512 rfl rfl).symm k) = ix2 k s := funext fun a => Fin.ext (by
    match a with
    | ⟨0, _⟩ => exact (weight_rhs_0 _ _).trans hk
    | ⟨1, _⟩ => exact weight_rhs_1 _ _)
  rw [el, er]

/-! ## The stored tile -/

/-- The stored tile at `(u, p, s)` (`u` the unit leading axis): the rows' entry plus the coupling-weighted sum of depth. -/
theorem stored_apply (tile : Vec Ideal S128x4096 .bf16) (rgb depth : Vec Ideal S512x4096 .bf16) (rows : Vec Ideal S1x128x4096 .f32)
    (u : Fin 1) (p : Fin 128) (s : Fin 4096) :
    k0_pay3 (F := Ideal) tile rgb depth rows (ix3 u p s)
      = rows (ix3 (0 : Fin 1) p s)
        + ∑ d : Fin 512, Ideal.logistic (∑ s' : Fin 4096, tile (ix2 p s') * rgb (ix2 d s')) * depth (ix2 d s) := by
  unfold k0_pay3
  rw [shapeCast_ab_1ab_apply, addf_apply, shapeCast_1ab_ab_apply]
  simp only [matmul]
  rw [weight_apply]
  refine congrArg (rows (ix3 (0 : Fin 1) p s) + ·) (Finset.sum_congr rfl fun d _ => ?_)
  rw [truncf_apply]
  exact congrArg (· * depth (ix2 d s)) (congrArg Ideal.logistic (coupling_apply tile rgb p d))

/-- Channel `128·ct + p` of a tile `ct` of four. -/
abbrev chan (ct : Fin 4) (p : Fin 128) : Fin 512 := ⟨128 * ct.val + p.val, by have := ct.isLt; have := p.isLt; omega⟩

/-- If the four operands are entries of two flattened arrays `R` (rgb) and `D` (depth) in batch `b`, the tile and the
    rows being channels `128·ct + p`, then the stored tile is the fused map there. -/
theorem tile_value (R D : FVec Ideal Sbcs .f32) (b : Fin 16) (ct : Fin 4)
    (tile : Vec Ideal S128x4096 .bf16) (rgb depth : Vec Ideal S512x4096 .bf16) (rows : Vec Ideal S1x128x4096 .f32)
    (htile : ∀ p s, tile (ix2 p s) = D (ix3 b (chan ct p) s))
    (hrgb : ∀ d s, rgb (ix2 d s) = R (ix3 b d s))
    (hdepth : ∀ d s, depth (ix2 d s) = D (ix3 b d s))
    (hrows : ∀ p s, rows (ix3 (0 : Fin 1) p s) = R (ix3 b (chan ct p) s))
    (u : Fin 1) (p : Fin 128) (s : Fin 4096) :
    k0_pay3 (F := Ideal) tile rgb depth rows (ix3 u p s) = fused3 R D (ix3 b (chan ct p) s) := by
  rw [stored_apply, hrows]
  show _ = R (ix3 b (chan ct p) s) + ∑ d : Fin 512, coupling R D b (chan ct p) d * D (ix3 b d s)
  refine congrArg (R (ix3 b (chan ct p) s) + ·) (Finset.sum_congr rfl fun d _ => ?_)
  rw [hdepth]
  unfold coupling
  simp only [htile, hrgb]

/-- The cached copy of an operand block `x` (a change of float format between two reshapes): entry `(d, s)` is `x`'s. -/
theorem cached_rgb_apply (x : Vec Ideal S1x512x4096 .f32) (d : Fin 512) (s : Fin 4096) :
    k0_pay1 (F := Ideal) x (ix2 d s) = x (ix3 (0 : Fin 1) d s) := by
  unfold k0_pay1
  rw [shapeCast_self, truncf_apply, shapeCast_1ab_ab_apply]
theorem cached_depth_apply (x : Vec Ideal S1x512x4096 .f32) (d : Fin 512) (s : Fin 4096) :
    k0_pay2 (F := Ideal) x (ix2 d s) = x (ix3 (0 : Fin 1) d s) := by
  unfold k0_pay2
  rw [shapeCast_self, truncf_apply, shapeCast_1ab_ab_apply]

end Cert.KernelIdeal.Tile

end
-- ==== Proof.Carried.lean ====
/-
  What the scratches carry, and the tile every point writes.

  The grid is 16 batches by 4 channel tiles, the tiles fastest: point `t` is batch `t / 4`, tile `t % 4`. The rgb and
  the depth window stage, at every point of a batch, that batch's whole 512 × 4096 slab of the flattened array. The
  scratches are stored at tile 0 and only read afterwards; by induction on the point, after EVERY point the rgb
  scratch holds the batch's slab of flattened rgb and the depth scratch the batch's slab of flattened depth (at tile
  0 because they were just stored from the staged slabs, later because nothing stored into them and the batch has
  not changed). So at every point the four operands of the tile's arithmetic are entries of the two flattened
  arrays, and the tile written is the fused map on channels `128·(t % 4) + p` of batch `t / 4` (`tile_written`).
-/
import proofs.«152526_j21861383537209_1_alg».proof.Proof.Pieces
import proofs.«152526_j21861383537209_1_alg».proof.Proof.Tile

set_option maxRecDepth 16384

noncomputable section

namespace Cert.KernelIdeal.Carried

open Cert.KernelIdeal Cert.KernelIdeal.Gen Cert.KernelIdeal.Pieces Cert.KernelIdeal.Tile
open Idealize.ShloMosaic Idealize.ShloMosaic.TcCoe Idealize.SL.Sem Idealize.ShloMosaic.ValueIdx Cert.Fusion

variable (m : (ℓ : Loc nD τ sig) → Buf (Elt Ideal) ℓ)

/-- The flattened rgb array as the region finds it. -/
abbrev flatRgb (c : Dev nD) : FVec Ideal Sbcs .f32 := V m c main_v0
/-- The flattened depth array as the region finds it. -/
abbrev flatDepth (c : Dev nD) : FVec Ideal Sbcs .f32 := V m c main_v1
/-- The slab of flattened rgb staged at point `t`. -/
abbrev rgbBlk (c : Dev nD) (t : Fin cfg0.N) : Vec Ideal S1x512x4096 .f32 := iblk m c 0 t
/-- The slab of flattened depth staged at point `t`. -/
abbrev depthBlk (c : Dev nD) (t : Fin cfg0.N) : Vec Ideal S1x512x4096 .f32 := iblk m c 1 t

theorem points : cfg0.N = 64 := N_0

/-- Point `t`'s batch. -/
def batch (t : Fin cfg0.N) : Fin 16 := ⟨t.val / 4, by have := t.isLt; have := points; omega⟩
/-- Point `t`'s channel tile. -/
def ctile (t : Fin cfg0.N) : Fin 4 := ⟨t.val % 4, Nat.mod_lt _ (by decide)⟩

/-- The printed index maps and the body's two row offsets, decided over the grid: the input windows sit at block
    `(t / 4, 0, 0)`, the output window at `(t / 4, t % 4, 0)`, and the body reads rows `128 · (t % 4)` onwards. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ k0_off1 (grid0.coords t) (0 : Fin 2) = 128 * (t.val % 4) ∧ k0_off1 (grid0.coords t) (1 : Fin 2) = 0
    ∧ k0_off2 (grid0.coords t) (0 : Fin 3) = 0 ∧ k0_off2 (grid0.coords t) (1 : Fin 3) = 128 * (t.val % 4)
    ∧ k0_off2 (grid0.coords t) (2 : Fin 3) = 0 :=
  (by decide +kernel : ∀ t : Fin grid0.N, _)

/-- The staged rgb slab at `(0, d, s)` is flattened rgb at `(t / 4, d, s)`. -/
theorem rgbBlk_apply (c : Dev nD) (t : Fin cfg0.N) (d : Fin 512) (s : Fin 4096) :
    rgbBlk m c t (ix3 (0 : Fin 1) d s) = flatRgb m c (ix3 (batch t) d s) := by
  obtain ⟨e0, e1, e2, -⟩ := idx_facts t
  show iblk m c 0 t (ix3 (0 : Fin 1) d s) = _
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val / 4; omega
  | ⟨1, _⟩ => show win0_0.index t (1 : Fin 3) * 512 + 1 * d.val = d.val; omega
  | ⟨2, _⟩ => show win0_0.index t (2 : Fin 3) * 4096 + 1 * s.val = s.val; omega

/-- The staged depth slab at `(0, d, s)` is flattened depth at `(t / 4, d, s)`. -/
theorem depthBlk_apply (c : Dev nD) (t : Fin cfg0.N) (d : Fin 512) (s : Fin 4096) :
    depthBlk m c t (ix3 (0 : Fin 1) d s) = flatDepth m c (ix3 (batch t) d s) := by
  obtain ⟨-, -, -, e0, e1, e2, -⟩ := idx_facts t
  show iblk m c 1 t (ix3 (0 : Fin 1) d s) = _
  unfold iblk
  rw [View.read_apply]
  show V m c main_v1 _ = V m c main_v1 _
  refine congrArg (V m c main_v1) (funext fun a => Fin.ext ?_)
  match a with
  | ⟨0, _⟩ => show win0_1.index t (0 : Fin 3) * 1 + 1 * 0 = t.val / 4; omega
  | ⟨1, _⟩ => show win0_1.index t (1 : Fin 3) * 512 + 1 * d.val = d.val; omega
  | ⟨2, _⟩ => show win0_1.index t (2 : Fin 3) * 4096 + 1 * s.val = s.val; omega

/-- Rows `128 · (t % 4) + p` of a scratch, read through the tile's rectangle. -/
theorem tile_ld (X : Vec Ideal S512x4096 .bf16) (t : Fin cfg0.N) (p : Fin 128) (s : Fin 4096) :
    tileOf (grid0.coords t) X (ix2 p s) = X (ix2 (chan (ctile t) p) s) := by
  obtain ⟨-, -, -, -, -, -, -, -, -, e0, e1, -⟩ := idx_facts t
  unfold tileOf
  show X _ = X _
  refine congrArg X (funext fun a => Fin.ext ?_)
  match a with
  | ⟨0, _⟩ => show k0_off1 (grid0.coords t) (0 : Fin 2) + 1 * p.val = 128 * (t.val % 4) + p.val; omega
  | ⟨1, _⟩ => show k0_off1 (grid0.coords t) (1 : Fin 2) + 1 * s.val = s.val; omega

/-- Channels `128 · (t % 4) + p` of a staged slab, read through the rows' rectangle. -/
theorem rows_ld (X : Vec Ideal S1x512x4096 .f32) (t : Fin cfg0.N) (p : Fin 128) (s : Fin 4096) :
    rowsOf (grid0.coords t) X (ix3 (0 : Fin 1) p s) = X (ix3 (0 : Fin 1) (chan (ctile t) p) s) := by
  obtain ⟨-, -, -, -, -, -, -, -, -, -, -, e0, e1, e2⟩ := idx_facts t
  unfold rowsOf
  show X _ = X _
  refine congrArg X (funext fun a => Fin.ext ?_)
  match a with
  | ⟨0, _⟩ => show k0_off2 (grid0.coords t) (0 : Fin 3) + 1 * 0 = 0; omega
  | ⟨1, _⟩ => show k0_off2 (grid0.coords t) (1 : Fin 3) + 1 * p.val = 128 * (t.val % 4) + p.val; omega
  | ⟨2, _⟩ => show k0_off2 (grid0.coords t) (2 : Fin 3) + 1 * s.val = s.val; omega

/-- THE INVARIANT. After every point the rgb scratch holds the batch's slab of flattened rgb and the depth scratch
    the batch's slab of flattened depth. -/
theorem carried (c : Dev nD) : ∀ (n : ℕ) (hn : n < cfg0.N),
    (∀ (d : Fin 512) (s : Fin 4096), ((outsAt0 m c n hn).2.1 : Vec Ideal S512x4096 .bf16) (ix2 d s) = flatRgb m c (ix3 (batch ⟨n, hn⟩) d s))
    ∧ (∀ (d : Fin 512) (s : Fin 4096), ((outsAt0 m c n hn).2.2 : Vec Ideal S512x4096 .bf16) (ix2 d s) = flatDepth m c (ix3 (batch ⟨n, hn⟩) d s)) := by
  intro n
  induction n with
  | zero =>
    intro hn
    have h0 : (⟨0, hn⟩ : Fin cfg0.N).val % 4 = 0 := rfl
    rw [outsAt0_A m c ⟨0, hn⟩ h0]
    dsimp only
    rw [scratch_rgb_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (rgbBlk m c ⟨0, hn⟩) (depthBlk m c ⟨0, hn⟩),
      scratch_depth_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (rgbBlk m c ⟨0, hn⟩) (depthBlk m c ⟨0, hn⟩)]
    exact ⟨fun d s => (cached_rgb_apply (rgbBlk m c ⟨0, hn⟩) d s).trans (rgbBlk_apply m c ⟨0, hn⟩ d s),
      fun d s => (cached_depth_apply (depthBlk m c ⟨0, hn⟩) d s).trans (depthBlk_apply m c ⟨0, hn⟩ d s)⟩
  | succ k ih =>
    intro hn
    by_cases h0 : (⟨k + 1, hn⟩ : Fin cfg0.N).val % 4 = 0
    · rw [outsAt0_A m c ⟨k + 1, hn⟩ h0]
      dsimp only
      rw [scratch_rgb_A c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) scM0_0 (Memref.isWhole_whole _) scM0_1 (Memref.isWhole_whole _) ((hcond0_0 ⟨k + 1, hn⟩).mpr h0) (rgbBlk m c ⟨k + 1, hn⟩) (depthBlk m c ⟨k + 1, hn⟩),
        scratch_depth_A c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) scM0_0 (Memref.isWhole_whole _) scM0_1 (Memref.isWhole_whole _) ((hcond0_0 ⟨k + 1, hn⟩).mpr h0) (rgbBlk m c ⟨k + 1, hn⟩) (depthBlk m c ⟨k + 1, hn⟩)]
      exact ⟨fun d s => (cached_rgb_apply (rgbBlk m c ⟨k + 1, hn⟩) d s).trans (rgbBlk_apply m c ⟨k + 1, hn⟩ d s),
        fun d s => (cached_depth_apply (depthBlk m c ⟨k + 1, hn⟩) d s).trans (depthBlk_apply m c ⟨k + 1, hn⟩ d s)⟩
    · have hk : k < cfg0.N := Nat.lt_of_succ_lt hn
      have hb : batch ⟨k, hk⟩ = batch ⟨k + 1, hn⟩ := Fin.ext (by
        show k / 4 = (k + 1) / 4
        have : ¬(k + 1) % 4 = 0 := h0
        omega)
      rw [outsAt0_B m c ⟨k + 1, hn⟩ h0]
      dsimp only
      unfold sout0_B_0 sout0_B_1
      rw [← hb]
      exact ih hk

/-- THE TILE WRITTEN at point `t`: the fused map of the two flattened arrays on channels `128 · (t % 4) + p` of batch
    `t / 4`. At tile 0 the operands are the copies just cached from the staged slabs; at the later tiles the scratches
    hold the batch's slabs by the invariant at the point before, which is in the same batch. -/
theorem tile_written (c : Dev nD) (t : Fin cfg0.N) (u : Fin 1) (p : Fin 128) (s : Fin 4096) :
    ((outsAt0 m c t.val t.isLt).1 : Vec Ideal S1x128x4096 .f32) (ix3 u p s)
      = fused3 (flatRgb m c) (flatDepth m c) (ix3 (batch t) (chan (ctile t) p) s) := by
  by_cases h0 : t.val % 4 = 0
  · rw [outsAt0_A m c t h0]
    dsimp only
    rw [out_A c (grid0.coords t) (ms0_0 t) (hs0_0 t) (ms0_1 t) (hs0_1 t) (ms0_2 t) (hs0_2 t) scM0_0 (Memref.isWhole_whole _) scM0_1 (Memref.isWhole_whole _) ((hcond0_0 t).mpr h0) (rgbBlk m c t) (depthBlk m c t)]
    refine tile_value (flatRgb m c) (flatDepth m c) (batch t) (ctile t) _ _ _ _ ?_ ?_ ?_ ?_ u p s
    · intro p s
      exact (tile_ld (k0_pay2 (depthBlk m c t)) t p s).trans
        ((cached_depth_apply (depthBlk m c t) (chan (ctile t) p) s).trans (depthBlk_apply m c t (chan (ctile t) p) s))
    · intro d s
      exact (cached_rgb_apply (rgbBlk m c t) d s).trans (rgbBlk_apply m c t d s)
    · intro d s
      exact (cached_depth_apply (depthBlk m c t) d s).trans (depthBlk_apply m c t d s)
    · intro p s
      exact (rows_ld (rgbBlk m c t) t p s).trans (rgbBlk_apply m c t (chan (ctile t) p) s)
  · have hlt : t.val - 1 < cfg0.N := Nat.lt_of_le_of_lt (Nat.sub_le _ _) t.isLt
    have hb : batch ⟨t.val - 1, hlt⟩ = batch t := Fin.ext (by
      show (t.val - 1) / 4 = t.val / 4
      omega)
    obtain ⟨hR, hD⟩ := carried m c (t.val - 1) hlt
    rw [hb] at hR hD
    rw [outsAt0_B m c t h0]
    dsimp only
    rw [out_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (rgbBlk m c t) (depthBlk m c t)
      ((outsAt0 m c (t.val - 1) hlt).2.1) ((outsAt0 m c (t.val - 1) hlt).2.2)]
    refine tile_value (flatRgb m c) (flatDepth m c) (batch t) (ctile t) _ _ _ _ ?_ hR hD ?_ u p s
    · intro p s
      exact (tile_ld ((outsAt0 m c (t.val - 1) hlt).2.2) t p s).trans (hD (chan (ctile t) p) s)
    · intro p s
      exact (rows_ld (rgbBlk m c t) t p s).trans (rgbBlk_apply m c t (chan (ctile t) p) s)

end Cert.KernelIdeal.Carried

end
-- ==== Proof.Result.lean ====
/-
  The kernel's result array.

  Every point writes its tile back, and tile `(t / 4, t % 4)` of the flattened output is rows
  `128 · (t % 4) … 128 · (t % 4) + 127` of batch `t / 4`: what is written there is the fused map of the flattened
  arrays (`Carried.tile_written`), so each write-back is that block of ONE whole-array function. The 64 tiles cover the
  flattened output — entry `(b, c, s)` lies in the tile of point `4 · b + c / 128` — so after the region the flattened
  output IS the fused map of the flattened inputs. Around the region the host only reshapes: the flattened inputs are
  the arguments flattened, the result is the flattened output unflattened, so the result is `Fusion.fused` of the two
  arguments.
-/
import proofs.«152526_j21861383537209_1_alg».proof.Proof.Carried
import Idealize.ShloMosaic.Lib.StableHlo.Run

set_option maxRecDepth 16384

noncomputable section

namespace Cert.KernelIdeal.Result

open Cert.KernelIdeal Cert.KernelIdeal.Gen Cert.KernelIdeal.Carried Cert.KernelIdeal.Tile
open Idealize.ShloMosaic Idealize.ShloMosaic.TcCoe Idealize.SL.Sem Idealize.ShloMosaic.ValueIdx Cert.Fusion
open Idealize.ShloMosaic.Pipeline (Dat)

variable (m : (ℓ : Loc nD τ sig) → Buf (Elt Ideal) ℓ) (ρ : Dev nD → PrngReg)

/-- The fused map of the flattened arrays as the region finds them. -/
abbrev flatFused (c : Dev nD) : FVec Ideal Sbcs .f32 := fused3 (flatRgb m c) (flatDepth m c)

/-- WHAT POINT `t` WRITES BACK is block `t` of the flattened fused map. -/
theorem flushed_eq (c : Dev nD) (t : Fin cfg0.N) :
    (dats m 0 c).flushed 2 t = ((cfg0.win 2).blk t).view.read (Elt Ideal) (flatFused m c) := by
  obtain ⟨-, -, -, -, -, -, e0, e1, e2, -⟩ := idx_facts t
  show (cfg0.win 2).cut (grid0.coords t) ((dats m 0 c).after 2 t) = _
  rw [after0_2]
  funext j
  obtain ⟨u, p, s, rfl⟩ : ∃ (u : Fin 1) (p : Fin 128) (s : Fin 4096), j = ix3 u p s := ⟨j 0, j 1, j 2, eq_ix3 j⟩
  show ((outsAt0 m c t.val t.isLt).1 : Vec Ideal S1x128x4096 .f32) (ix3 u p s)
    = flatFused m c (((cfg0.win 2).blk t).view.emb (ix3 u p s))
  rw [tile_written]
  refine congrArg (flatFused m c) (funext fun a => Fin.ext ?_)
  have hu : u.val = 0 := by omega
  match a with
  | ⟨0, _⟩ => show t.val / 4 = win0_2.index t (0 : Fin 3) * 1 + 1 * u.val; omega
  | ⟨1, _⟩ => show 128 * (t.val % 4) + p.val = win0_2.index t (1 : Fin 3) * 128 + 1 * p.val; omega
  | ⟨2, _⟩ => show s.val = win0_2.index t (2 : Fin 3) * 4096 + 1 * s.val; omega

/-- An entry of the flattened output is in point `t`'s block iff each coordinate is in the block's range. -/
theorem mem_blk (t : Fin cfg0.N) (i : S16x512x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v2).slice (win0_2.rect t)).set ↔ _
  rw [View.set_slice_whole, Rect.mem_set_unit]
  exact Iff.rfl

/-- THE FLATTENED OUTPUT after the region is the fused map of the flattened inputs: the 64 tiles cover it. -/
theorem final (c : Dev nD) : (dats m 0 c).arrAt 2 cfg0.N = flatFused m c :=
  (dats m 0 c).arrAt_eq_of_cover 2 (flatFused m c) (fun t _ => flushed_eq m c t) fun i => by
    have h0 : (i 0).val < 16 := (i 0).isLt
    have h1 : (i 1).val < 512 := (i 1).isLt
    have h2 : (i 2).val < 4096 := (i 2).isLt
    have hN : cfg0.N = 64 := points
    refine ⟨⟨4 * (i 0).val + (i 1).val / 128, by omega⟩, flush0_2 _, ?_⟩
    obtain ⟨-, -, -, -, -, -, e0, e1, e2, -⟩ := idx_facts ⟨4 * (i 0).val + (i 1).val / 128, by omega⟩
    rw [mem_blk]
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 128 ≤ (i 1).val ∧ (i 1).val < win0_2.index _ (1 : Fin 3) * 128 + 128
      rw [e1]; dsimp only; omega
    | ⟨2, _⟩ =>
      show win0_2.index _ (2 : Fin 3) * 4096 ≤ (i 2).val ∧ (i 2).val < win0_2.index _ (2 : Fin 3) * 4096 + 4096
      rw [e2]; omega

/-- Before the region the host flattens the first argument … -/
theorem flatRgb_eq (c : Dev nD) :
    flatRgb m c = shapeCast Sbcs (m ((c : Thread nD τ).loc main_arg0)) shapeCasts_S16x512x64x64_S16x512x4096 := by
  show StableHlo.after hostOps0 (fun b => m (c, b)) (Proc.devRef .tc main_v0) = _
  after_results
  rfl

/-- … and the second. -/
theorem flatDepth_eq (c : Dev nD) :
    flatDepth m c = shapeCast Sbcs (m ((c : Thread nD τ).loc main_arg1)) shapeCasts_S16x512x64x64_S16x512x4096 := by
  show StableHlo.after hostOps0 (fun b => m (c, b)) (Proc.devRef .tc main_v1) = _
  after_results
  rfl

/-- After the region the host unflattens the output: the result is the fused map of the two arguments. -/
theorem tail_eq (c : Dev nD) :
    Pipeline.afterTail₀ cfgs (dats m) 0 (V0 m) [hostOps1] c main_v3
      = fused shapeCasts_S16x512x64x64_S16x512x4096 shapeCasts_S16x512x4096_S16x512x64x64
          (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (final m c)]
  unfold fused
  rw [← flatRgb_eq, ← flatDepth_eq]
  rfl

/-- The kernel's run, read: the result at the fused map of the arguments, the arguments unchanged. -/
theorem run : θ_run defs (onTc (τ := τ) (main (F := Ideal))) ⟨m, fun _ => 0, ρ⟩ fun r => ∀ c : Dev nD,
      r.2.mem ((c.tc : Thread nD τ).loc main_v3)
        = fused shapeCasts_S16x512x64x64_S16x512x4096 shapeCasts_S16x512x4096_S16x512x64x64
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.lean ====
/-
  Cross-modal fusion: `rgb + sigmoid (depth · rgbᵀ) · depth`, batch by batch, over f32[16, 512, 64, 64].

  With the two spatial axes flattened to 4096 positions, the reference forms for every batch the 512 × 512 matrix of
  inner products of depth's channels with rgb's channels, applies the logistic function, multiplies the result into
  depth and adds rgb. The kernel does the same one 128-channel tile at a time on a 16 × 4 grid: at a batch's first
  tile it caches the batch's rgb and depth slabs in two scratch buffers (in a narrower float format), and every tile
  then computes `tile · rgbᵀ`, the logistic function, `· depth`, plus the tile's rows of rgb.

  At the ideal values — floats are extended reals, every operation exact, a change of float format the identity —
  both are ONE function of the two argument arrays, `Fusion.fused` (Proof/Fusion.lean):
  * the reference is that function (Proof/Reference.lean): each batched product at an entry is a plain sum over the
    contracted axis, and the host's `1 / (1 + exp (-x))` is the logistic function on every extended real;
  * the kernel's result is that function (Proof/Tile.lean: one tile's arithmetic at an entry; Proof/Pieces.lean: what
    a grid point leaves in the output tile and the scratches, case by case; Proof/Carried.lean: by induction on the
    point the scratches hold the batch's slabs, so every tile written is the function on its channels;
    Proof/Result.lean: the 64 tiles cover the flattened output, and the host only reshapes around the region).
  No law of arithmetic beyond reading a product as a sum is used, so the finiteness of the inputs is never opened:
  the two results agree on all extended reals. The kernel's idealization rewrote nothing, so `preserves` is trivial;
  the two kernels' frames are the generated ones, the reference's its generated run with the result dropped.
-/
import proofs.«152526_j21861383537209_1_alg».proof.Defs
import proofs.«152526_j21861383537209_1_alg».proof.Proof.Gen.Kernel
import proofs.«152526_j21861383537209_1_alg».proof.Proof.Gen.Kernel.Skeleton
import proofs.«152526_j21861383537209_1_alg».proof.Proof.Gen.Kernel.Launch
import proofs.«152526_j21861383537209_1_alg».proof.Proof.Gen.Kernel.Points
import proofs.«152526_j21861383537209_1_alg».proof.Proof.Gen.Kernel.Frame
import proofs.«152526_j21861383537209_1_alg».proof.Proof.Gen.KernelIdeal
import proofs.«152526_j21861383537209_1_alg».proof.Proof.Gen.KernelIdeal.Skeleton
import proofs.«152526_j21861383537209_1_alg».proof.Proof.Gen.KernelIdeal.Launch
import proofs.«152526_j21861383537209_1_alg».proof.Proof.Gen.KernelIdeal.Points
import proofs.«152526_j21861383537209_1_alg».proof.Proof.Gen.KernelIdeal.Frame
import proofs.«152526_j21861383537209_1_alg».proof.Proof.Gen.ReferenceIdeal
import proofs.«152526_j21861383537209_1_alg».proof.Proof.Gen.ReferenceIdeal.Run
import proofs.«152526_j21861383537209_1_alg».proof.Proof.Gen.ReferenceIdeal.Read
import proofs.«152526_j21861383537209_1_alg».proof.Proof.Gen.Pre_finite_inputs
import proofs.«152526_j21861383537209_1_alg».proof.Proof.Reference
import proofs.«152526_j21861383537209_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- At the ideal values the kernel's result ends at the fused map of its arguments (Proof/Result.lean) and the
    reference's at the fused map of its own (Proof/Reference.lean), and the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v11 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [Cert.Fusion.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
